-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x64 : Shape := ⟨3, ![32, 512, 64]⟩
abbrev S64x64 : Shape := ⟨2, ![64, 64]⟩
abbrev S64 : Shape := ⟨1, ![64]⟩
abbrev S_ : Shape := ⟨0, ![]⟩

class Facts : Prop where
  bcast_S_S32x512x64 : S_.BroadcastsInDim S32x512x64 (![] : Fin 0 → Fin S32x512x64.rank)
  reducesTo_S32x512x64_S_d0_1_2 : S32x512x64.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S32x512x64 .f32) (main_arg1 : FVec F S64x64 .f32) (main_arg2 : FVec F S64 .f32) : IVec S_ 1 :=
  let main_v0 : FVec F S32x512x64 .f32 := Host.absf main_arg0
  let main_cst : FVec F S_ .f32 := constant S_ .f32 0x7F800000#32
  let main_v1 : FVec F S32x512x64 .f32 := broadcastInDim S32x512x64 ![] bcast_S_S32x512x64 main_cst
  let main_v2 : IVec S32x512x64 1 := cmpf .olt main_v0 main_v1
  let main_c : IVec S_ 1 := constantI S_ 1 1#1
  let main_v3 : IVec S_ 1 := (fun x v => Host.reduce IntOp.andi x v reducesTo_S32x512x64_S_d0_1_2 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S32x512x64 : Shape := ⟨3, ![32, 512, 64]⟩
abbrev S64x64 : Shape := ⟨2, ![64, 64]⟩
abbrev S64 : Shape := ⟨1, ![64]⟩
abbrev S1x64 : Shape := ⟨2, ![1, 64]⟩
abbrev S32x64 : Shape := ⟨2, ![32, 64]⟩
abbrev S8x512x64 : Shape := ⟨3, ![8, 512, 64]⟩
abbrev S8x64 : Shape := ⟨2, ![8, 64]⟩
abbrev S4096x64 : Shape := ⟨2, ![4096, 64]⟩
abbrev S1x1x64 : Shape := ⟨3, ![1, 1, 64]⟩
abbrev S8x64x128 : Shape := ⟨3, ![8, 64, 128]⟩
abbrev S8x16x64 : Shape := ⟨3, ![8, 16, 64]⟩
abbrev S8x16x64x1 : Shape := ⟨4, ![8, 16, 64, 1]⟩
abbrev S8x16x64x64 : Shape := ⟨4, ![8, 16, 64, 64]⟩
abbrev S8x16x64x128 : Shape := ⟨4, ![8, 16, 64, 128]⟩
abbrev S8x16x128 : Shape := ⟨3, ![8, 16, 128]⟩
abbrev S8x16x1x128 : Shape := ⟨4, ![8, 16, 1, 128]⟩
abbrev S8x64x64 : Shape := ⟨3, ![8, 64, 64]⟩

abbrev nBuf : Space → Nat
  | .hbm => 5
  | .vmem => 7
  | .smem => 0
  | _ => 0

abbrev bufTy : (tb : Table) → Fin (tcTables nBuf tb) → BufTy
  | .hbm, ⟨0, _⟩ => ⟨S32x512x64, .f32⟩
  | .hbm, ⟨1, _⟩ => ⟨S64x64, .f32⟩
  | .hbm, ⟨2, _⟩ => ⟨S64, .f32⟩
  | .hbm, ⟨3, _⟩ => ⟨S1x64, .f32⟩
  | .hbm, ⟨4, _⟩ => ⟨S32x64, .f32⟩
  | .local _ .vmem, ⟨0, _⟩ => ⟨S8x512x64, .f32⟩
  | .local _ .vmem, ⟨1, _⟩ => ⟨S8x512x64, .f32⟩
  | .local _ .vmem, ⟨2, _⟩ => ⟨S64x64, .f32⟩
  | .local _ .vmem, ⟨3, _⟩ => ⟨S1x64, .f32⟩
  | .local _ .vmem, ⟨4, _⟩ => ⟨S8x64, .f32⟩
  | .local _ .vmem, ⟨5, _⟩ => ⟨S8x64, .f32⟩
  | .local _ .vmem, ⟨6, _⟩ => ⟨S8x512x64, .bf16⟩
  | _, _ => ⟨S32x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c16_i32 : BitVec 32 := 16#32
  let v18 : BitVec 32 := Scalar.addi c0_i32 c16_i32
  let c1_i32 : BitVec 32 := 1#32
  ⟨c0_i32, v18, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c32_i32 : BitVec 32 := 32#32
  let v27 : BitVec 32 := Scalar.muli arg6 c32_i32
  v27
def k0_mult2 (k0_t1 : Fin k0_t1_loop.trips) : BitVec 32 :=
  let c0_i32 : BitVec 32 := 0#32
  let c1_i32 : BitVec 32 := 1#32
  let arg6 : BitVec 32 := Scf.iv c0_i32 c1_i32 k0_t1
  let c32_i32 : BitVec 32 := 32#32
  let v27 : BitVec 32 := Scalar.muli arg6 c32_i32
  let v28 : BitVec 32 := v27
  let c16_i32_15 : BitVec 32 := 16#32
  let v29 : BitVec 32 := Scalar.addi v28 c16_i32_15
  v29
def k0_off1 (k0_t1 : Fin k0_t1_loop.trips) : Fin 3 → Nat :=
  let c0_16 : Index := 0#32
  let c0_i32 : BitVec 32 := 0#32
  let c1_i32 : BitVec 32 := 1#32
  let arg6 : BitVec 32 := Scf.iv c0_i32 c1_i32 k0_t1
  let c32_i32 : BitVec 32 := 32#32
  let v27 : BitVec 32 := Scalar.muli arg6 c32_i32
  let v28 : BitVec 32 := v27
  let v31 : Index := Scalar.indexCast v28
  let c0_17 : Index := 0#32
  ![0, v31.toNat, 0]
def k0_off2 (k0_t1 : Fin k0_t1_loop.trips) : Fin 3 → Nat :=
  let c0_18 : Index := 0#32
  let c0_i32 : BitVec 32 := 0#32
  let c1_i32 : BitVec 32 := 1#32
  let arg6 : BitVec 32 := Scf.iv c0_i32 c1_i32 k0_t1
  let c32_i32 : BitVec 32 := 32#32
  let v27 : BitVec 32 := Scalar.muli arg6 c32_i32
  let v28 : BitVec 32 := v27
  let c16_i32_15 : BitVec 32 := 16#32
  let v29 : BitVec 32 := Scalar.addi v28 c16_i32_15
  let v30 : BitVec 32 := v29
  let v34 : Index := Scalar.indexCast v30
  let c0_19 : Index := 0#32
  ![0, v34.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64_S1x64 : S64.ShapeCasts S1x64
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S8x512x64_S8x512x64_0_0_0 : ∀ a, (![0, 0, 0] : Fin 3 → Nat) a + S8x512x64.size a ≤ S8x512x64.size a
  h_S8x512x64 : 0 < S8x512x64.numel
  shapeCasts_S8x512x64_S4096x64 : S8x512x64.ShapeCasts S4096x64
  shapeCasts_S4096x64_S8x512x64 : S4096x64.ShapeCasts S8x512x64
  shapeCasts_S1x64_S1x1x64 : S1x64.ShapeCasts S1x1x64
  broadcasts_S1x1x64_S8x512x64 : S1x1x64.Broadcasts S8x512x64
  shapeCasts_S8x512x64_S8x512x64 : S8x512x64.ShapeCasts S8x512x64
  packedbf16_S8x512x64_S8x512x64_0_0_0 : (Rect.unit (s := S8x512x64) ![0, 0, 0] S8x512x64.size inb_S8x512x64_S8x512x64_0_0_0).PackedRows (EltTy.packing .bf16)
  h_S8x16x64 : 0 < S8x16x64.numel
  shapeCasts_S8x16x64_S8x16x64x1 : S8x16x64.ShapeCasts S8x16x64x1
  shapeCasts_S8x16x64x1_S8x16x64x1 : S8x16x64x1.ShapeCasts S8x16x64x1
  broadcasts_S8x16x64x1_S8x16x64x64 : S8x16x64x1.Broadcasts S8x16x64x64
  concatenates_S8x16x64x64_S8x16x64x64_S8x16x64x128_d3 : Shape.Concatenates [S8x16x64x64, S8x16x64x64] S8x16x64x128 3
  concatenates_S8x16x64_S8x16x64_S8x16x128_d2 : Shape.Concatenates [S8x16x64, S8x16x64] S8x16x128 2
  shapeCasts_S8x16x128_S8x16x1x128 : S8x16x128.ShapeCasts S8x16x1x128
  broadcasts_S8x16x1x128_S8x16x64x128 : S8x16x1x128.Broadcasts S8x16x64x128
  reduces_S8x16x64x128_S8x64x128 : S8x16x64x128.Reduces [1] S8x64x128
  slices_S8x64x128_o0_0_0_S8x64x64 : S8x64x128.Slices ![0, 0, 0] S8x64x64
  slices_S8x64x128_o0_0_64_S8x64x64 : S8x64x128.Slices ![0, 0, 64] S8x64x64
  reduces_S8x64x64_S8x64 : S8x64x64.Reduces [1] S8x64
  inb_S8x64_S8x64_0_0 : ∀ a, (![0, 0] : Fin 2 → Nat) a + S8x64.size a ≤ S8x64.size a
  h_S8x64 : 0 < S8x64.numel
  dot_S4096x64_S64x64_S4096x64_1_1_0_0_n_n_wf : DotDims.WF S4096x64 S64x64 S4096x64 [1] [1] [0] [0] [] []
  hrank0 : 0 < grid0.rank
  k0_t1_ok : k0_t1_loop.OK
  k0_mult1_dvd : ∀ k0_t1 : Fin k0_t1_loop.trips, 32 ∣ (k0_mult1 k0_t1).toNat
  k0_mult2_dvd : ∀ k0_t1 : Fin k0_t1_loop.trips, 16 ∣ (k0_mult2 k0_t1).toNat
  k0_off1_inb : ∀ k0_t1 : Fin k0_t1_loop.trips, ∀ a, (k0_off1 k0_t1) a + S8x16x64.size a ≤ S8x512x64.size a
  k0_off2_inb : ∀ k0_t1 : Fin k0_t1_loop.trips, ∀ a, (k0_off2 k0_t1) a + S8x16x64.size a ≤ S8x512x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x64.size a ≤ S32x512x64.size a
  hwx0_0 : ∀ i : grid0.Coords, EltTy.bits .f32 = 32 ∨ (Rect.block (s := S32x512x64) S8x512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x64.size a ≤ S32x64.size a
  hwx0_3 : ∀ i : grid0.Coords, EltTy.bits .f32 = 32 ∨ (Rect.block (s := S32x64) S8x64.size (cc0_transform_3 i) (hinb0_3 i)).WholeWords (EltTy.packing .f32)

variable [Facts₀]

def dot_S4096x64_S64x64_S4096x64_1_1_0_0_n_n : DotDims S4096x64 S64x64 S4096x64 where
  lhsContracting := [1]
  rhsContracting := [1]
  lhsNonContracting := [0]
  rhsNonContracting := [0]
  lhsBatch := []
  rhsBatch := []
  wf := dot_S4096x64_S64x64_S4096x64_1_1_0_0_n_n_wf

abbrev win0_0 : Pipeline.Window sig grid0 :=
  Pipeline.Window.ofSpec (Memref.whole main_arg0) S8x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x512x64 : Shape := ⟨3, ![32, 512, 64]⟩
abbrev S64x64 : Shape := ⟨2, ![64, 64]⟩
abbrev S64 : Shape := ⟨1, ![64]⟩
abbrev S1x1x64 : Shape := ⟨3, ![1, 1, 64]⟩
abbrev S_ : Shape := ⟨0, ![]⟩
abbrev S32x512x64x1 : Shape := ⟨4, ![32, 512, 64, 1]⟩
abbrev S32x512x1x64 : Shape := ⟨4, ![32, 512, 1, 64]⟩
abbrev S32x512x64x64 : Shape := ⟨4, ![32, 512, 64, 64]⟩
abbrev S32x64x64 : Shape := ⟨3, ![32, 64, 64]⟩
abbrev S32x64 : Shape := ⟨2, ![32, 64]⟩

abbrev nBuf : Space → Nat
  | .hbm => 27
  | .vmem => 0
  | .smem => 0
  | _ => 0

abbrev bufTy : (tb : Table) → Fin (tcTables nBuf tb) → BufTy
  | .hbm, ⟨0, _⟩ => ⟨S32x512x64, .f32⟩
  | .hbm, ⟨1, _⟩ => ⟨S64x64, .f32⟩
  | .hbm, ⟨2, _⟩ => ⟨S64, .f32⟩
  | .hbm, ⟨3, _⟩ => ⟨S32x512x64, .f32⟩
  | .hbm, ⟨4, _⟩ => ⟨S1x1x64, .f32⟩
  | .hbm, ⟨5, _⟩ => ⟨S32x512x64, .f32⟩
  | .hbm, ⟨6, _⟩ => ⟨S32x512x64, .f32⟩
  | .hbm, ⟨7, _⟩ => ⟨S32x512x64, .f32⟩
  | .hbm, ⟨8, _⟩ => ⟨S32x512x64, .f32⟩
  | .hbm, ⟨9, _⟩ => ⟨S_, .f32⟩
  | .hbm, ⟨10, _⟩ => ⟨S32x512x64, .f32⟩
  | .hbm, ⟨11, _⟩ => ⟨S32x512x64, .f32⟩
  | .hbm, ⟨12, _⟩ => ⟨S_, .f32⟩
  | .hbm, ⟨13, _⟩ => ⟨S32x512x64, .f32⟩
  | .hbm, ⟨14, _⟩ => ⟨S32x512x64, .f32⟩
  | .hbm, ⟨15, _⟩ => ⟨S32x512x64x1, .f32⟩
  | .hbm, ⟨16, _⟩ => ⟨S32x512x1x64, .f32⟩
  | .hbm, ⟨17, _⟩ => ⟨S32x512x64x64, .f32⟩
  | .hbm, ⟨18, _⟩ => ⟨S32x512x64x64, .f32⟩
  | .hbm, ⟨19, _⟩ => ⟨S32x512x64x64, .f32⟩
  | .hbm, ⟨20, _⟩ => ⟨S_, .f32⟩
  | .hbm, ⟨21, _⟩ => ⟨S32x64x64, .f32⟩
  | .hbm, ⟨22, _⟩ => ⟨S_, .f32⟩
  | .hbm, ⟨23, _⟩ => ⟨S32x64, .f32⟩
  | .hbm, ⟨24, _⟩ => ⟨S_, .f32⟩
  | .hbm, ⟨25, _⟩ => ⟨S32x64, .f32⟩
  | .hbm, ⟨26, _⟩ => ⟨S32x64, .f32⟩
  | _, _ => ⟨S32x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S32x512x64_0_1_2 : S1x1x64.BroadcastsInDim S32x512x64 (![0, 1, 2] : Fin 3 → Fin S32x512x64.rank)
  bcast_S_S32x512x64 : S_.BroadcastsInDim S32x512x64 (![] : Fin 0 → Fin S32x512x64.rank)
  bcast_S32x512x64_S32x512x64x1_0_1_2 : S32x512x64.BroadcastsInDim S32x512x64x1 (![0, 1, 2] : Fin 3 → Fin S32x512x64x1.rank)
  bcast_S32x512x64_S32x512x1x64_0_1_3 : S32x512x64.BroadcastsInDim S32x512x1x64 (![0, 1, 3] : Fin 3 → Fin S32x512x1x64.rank)
  bcast_S32x512x64x1_S32x512x64x64_0_1_2_3 : S32x512x64x1.BroadcastsInDim S32x512x64x64 (![0, 1, 2, 3] : Fin 4 → Fin S32x512x64x64.rank)
  bcast_S32x512x1x64_S32x512x64x64_0_1_2_3 : S32x512x1x64.BroadcastsInDim S32x512x64x64 (![0, 1, 2, 3] : Fin 4 → Fin S32x512x64x64.rank)
  reducesTo_S32x512x64x64_S32x64x64_d1 : S32x512x64x64.ReducesTo [1] S32x64x64
  h_S_ : 0 < S_.numel
  reducesTo_S32x64x64_S32x64_d1 : S32x64x64.ReducesTo [1] S32x64
  bcast_S_S32x64 : S_.BroadcastsInDim S32x64 (![] : Fin 0 → Fin S32x64.rank)
  dot_S32x512x64_S64x64_S32x512x64_2_1_01_0_n_n_wf : DotDims.WF S32x512x64 S64x64 S32x512x64 [2] [1] [0, 1] [0] [] []

variable [Facts₀]

def dot_S32x512x64_S64x64_S32x512x64_2_1_01_0_n_n : DotDims S32x512x64 S64x64 S32x512x64 where
  lhsContracting := [2]
  rhsContracting := [1]
  lhsNonContracting := [0, 1]
  rhsNonContracting := [0]
  lhsBatch := []
  rhsBatch := []
  wf := dot_S32x512x64_S64x64_S32x512x64_2_1_01_0_n_n_wf

class Facts : Prop extends Facts₀ where

variable [Facts]
-- ==== Proof.BlockTerm.lean ====
/-
  What one grid point of the kernel leaves in its output block, as a term: the last payload applied to the value the
  streaming loop carries after its 16 rounds, each round the trip payload applied to four 16-row chunks — two of the
  point's input block and two of the gate block the point stored in its scratch before the loop.
-/
import proofs.«416149_j40097814676120_3_alg».proof.Proof.Gen.KernelIdeal.Value
import Idealize.ShloMosaic.Lib.Pipeline.Value
import Idealize.ShloMosaic.Lib.WholeRead

set_option maxRecDepth 16384

noncomputable section

namespace Cert.Pool

open Cert.KernelIdeal Cert.KernelIdeal.Gen Idealize.ShloMosaic Idealize.ShloMosaic.TcCoe Idealize.SL.Sem Idealize.ShloMosaic.Tactic

variable {F : FTy → Type} [FloatOps F]

/-- The scratch contents the loop reads: the gate block `g` stored whole over anything. -/
abbrev scratchAfter (arg5 : Memref sig .tc .vmem S8x512x64 .bf16) (g : Vec F S8x512x64 .bf16) : BufTy.Contents (Elt F) arg5.view.ty :=
  arg5.view.writes (Elt F) arg5.view.junk
    [⟨Rect.unit (s := S8x512x64) ![0, 0, 0] S8x512x64.size inb_S8x512x64_S8x512x64_0_0_0, g⟩]

theorem zeros3 : (![0, 0, 0] : Fin 3 → ℕ) = fun _ => 0 := by
  funext a; match a with | ⟨0, _⟩ => rfl | ⟨1, _⟩ => rfl | ⟨2, _⟩ => rfl
theorem zeros2 : (![0, 0] : Fin 2 → ℕ) = fun _ => 0 := by
  funext a; match a with | ⟨0, _⟩ => rfl | ⟨1, _⟩ => rfl

/-- The output block after one point's body: the last payload of the carried value after all the rounds. -/
theorem block_piece (c : Dev nD) (i : grid0.Coords) (arg1 : Memref sig .tc .vmem S8x512x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S8x64 .f32) (harg4 : arg4.IsWhole) (arg5 : Memref sig .tc .vmem S8x512x64 .bf16) (harg5 : arg5.IsWhole)
    (x0 : Vec F S8x512x64 .f32) (x1 : Vec F S64x64 .f32) (x2 : Vec F S1x64 .f32) :
    out0_A_3 c i arg1 harg1 arg2 harg2 arg3 harg3 arg4 harg4 arg5 harg5 x0 x1 x2
      = k0_pay4 (st_k0_t1 Variants.none c none i arg1 harg1 arg2 harg2 arg3 harg3 arg4 harg4 arg5 harg5 (harg1.unread x0)
          (scratchAfter arg5 (k0_pay1 x1 x2 x0)) k0_pay2 16) := by
  unfold out0_A_3
  rw [View.read_writes_eq_canon _ _ _ (cover0_A_3 c i arg1 harg1 arg2 harg2 arg3 harg3 arg4 harg4 arg5 harg5 x0 x1 x2)]
  unfold kernelRun0_A
  dsimp only
  sl_unfold_words
  rw [View.canon_unit_zero zeros2]
  simp only [View.readAt_eq_ld, harg1.read_unread, harg2.read_unread, harg3.read_unread,
    View.ld_unit_zero (S := S8x512x64) zeros3, View.ld_unit_zero (S := S64x64) zeros2, View.ld_unit_zero (S := S1x64) zeros2]
  rfl

/-- One round's result: the trip payload of the carried value and the four chunks the round loads. -/
theorem trip_result (c : Dev nD) (i : grid0.Coords) (arg1 : Memref sig .tc .vmem S8x512x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S8x64 .f32) (harg4 : arg4.IsWhole) (arg5 : Memref sig .tc .vmem S8x512x64 .bf16) (harg5 : arg5.IsWhole)
    (X1 : BufTy.Contents (Elt F) arg1.view.ty) (X5 : BufTy.Contents (Elt F) arg5.view.ty) (k : Fin k0_t1_loop.trips) (acc : FVec F S8x64x128 .f32) :
    tripR_k0_t1 (F := F) Variants.none c none i arg1 harg1 arg2 harg2 arg3 harg3 arg4 harg4 arg5 harg5 X1 X5 k acc
      = k0_pay3 acc
          (View.readAt (Elt F) arg1.view (Rect.unit (s := S8x512x64) (k0_off1 k) S8x16x64.size (k0_off1_inb k)).toLoadRect X1)
          (View.readAt (Elt F) arg1.view (Rect.unit (s := S8x512x64) (k0_off2 k) S8x16x64.size (k0_off2_inb k)).toLoadRect X1)
          (View.readAt (Elt F) arg5.view (Rect.unit (s := S8x512x64) (k0_off1 k) S8x16x64.size (k0_off1_inb k)).toLoadRect X5)
          (View.readAt (Elt F) arg5.view (Rect.unit (s := S8x512x64) (k0_off2 k) S8x16x64.size (k0_off2_inb k)).toLoadRect X5) := by
  unfold tripR_k0_t1 trip_k0_t1
  rfl

end Cert.Pool

end
-- ==== Proof.Spec.lean ====
/-
  The pooled, gated outer product, one batch row at a time, on the extended reals.

  For one batch row the input is a slab xr of 512 node rows of 64 features, the weight W is 64 x 64 (output feature,
  input feature) and the bias has 64 entries. The gate of node n at output feature o is the logistic function of the
  affine map  sum_k xr n k * W o k + bias o.  The gated outer product at (n, i, o) is  xr n i * gate n o;  it is pooled
  by the maximum over the 512 nodes, taken as a fold of max from the bottom element, and the result at output
  feature o is the mean over the 64 input features i: their sum divided by 64 (kept as the float pattern of 64.0,
  which both programs spell the same way and which is never evaluated).
-/
import Idealize.ShloMosaic.PureOps.Ideal
import Mathlib.Data.Finset.Fold
import Mathlib.Algebra.BigOperators.Group.Finset.Basic

noncomputable section

namespace Cert.Pool

open Idealize.ShloMosaic

/-- The gate of node `n` at output feature `o`: the logistic function of the affine map of the node's features. -/
def gate (xr : Fin 512 → Fin 64 → EReal) (W : Fin 64 → Fin 64 → EReal) (bias : Fin 64 → EReal)
    (n : Fin 512) (o : Fin 64) : EReal :=
  Ideal.logistic ((∑ k : Fin 64, xr n k * W o k) + bias o)

/-- The gated outer product at node `n`, input feature `i`, output feature `o`. -/
def gated (xr : Fin 512 → Fin 64 → EReal) (W : Fin 64 → Fin 64 → EReal) (bias : Fin 64 → EReal)
    (i o : Fin 64) (n : Fin 512) : EReal :=
  xr n i * gate xr W bias n o

/-- The maximum over the nodes of the gated outer product, from the bottom element. -/
def pooled (xr : Fin 512 → Fin 64 → EReal) (W : Fin 64 → Fin 64 → EReal) (bias : Fin 64 → EReal)
    (i o : Fin 64) : EReal :=
  (Finset.univ : Finset (Fin 512)).fold max ⊥ (gated xr W bias i o)

/-- The mean over the input features of the pooled values: one entry of the result's row. -/
def outRow (xr : Fin 512 → Fin 64 → EReal) (W : Fin 64 → Fin 64 → EReal) (bias : Fin 64 → EReal)
    (o : Fin 64) : EReal :=
  Ideal.div (∑ i : Fin 64, pooled xr W bias i o) (Ideal.ofBits .f32 0x42800000#32)

end Cert.Pool

end
-- ==== Proof.TripMax.lean ====
/-
  One trip of the streaming maximum, read at a single entry of its result.

  A trip takes the running maximum acc, an array over (batch row p, input feature i, lane l) with 128 lanes, and two
  chunks of 16 node rows each: x and x' of the input (entries x p r i) and g and g' of the gate (entries g p r o).
  It spreads x and x' along a new last axis of 64 lanes each and lays them side by side into 128 lanes, lays g and g'
  side by side into 128 lanes and spreads them along the input-feature axis, multiplies the two arrays entry by entry,
  takes the maximum over the 16 rows starting from minus infinity, and takes the maximum of that with acc.

  So at lane o of the low half (o < 64) the result at (p, i, o) is
      max (acc p i o) (max over the 16 rows r of  x p r i * g p r o),
  and at lane 64 + o of the high half it is
      max (acc p i (64 + o)) (max over the 16 rows r of  x' p r i * g' p r o),
  where the maximum over the rows is the fold of max from the bottom element of the extended reals. The changes of
  number format on the way are the identity on extended reals.

  The proof reads each layout step at an index: a side-by-side array reads its first piece below lane 64 and its
  second piece, 64 lanes back, from lane 64 on; a spread array reads its operand with the new coordinate forgotten;
  a recast array reads the operand at the same row-major position; the maximum over one axis reads as the fold over
  that axis's coordinate inserted into the result's index.
-/
import proofs.«416149_j40097814676120_3_alg».proof.Proof.Gen.KernelIdeal.Value
import Idealize.ShloMosaic.Lib.ValueIdx
import Idealize.ShloMosaic.Lib.Pipeline.Value
import Idealize.ShloMosaic.PureOps.Ideal.Laws
import Mathlib.Data.Finset.Fold

set_option maxRecDepth 16384

noncomputable section

namespace Cert.Pool

open Idealize.ShloMosaic Idealize.ShloMosaic.ValueIdx Cert.KernelIdeal Cert.KernelIdeal.Gen

/-- Lane o of the low half of the 128 lanes. -/
def laneLo (o : Fin 64) : Fin 128 := ⟨o.val, by omega⟩
/-- Lane 64 + o: lane o of the high half of the 128 lanes. -/
def laneHi (o : Fin 64) : Fin 128 := ⟨64 + o.val, by omega⟩

/-- A chunk of the input spread along a new last axis of 64 lanes. -/
def colSpread (x : Vec Ideal S8x16x64 .f32) : FVec Ideal S8x16x64x64 .bf16 :=
  broadcastTo S8x16x64x64
    (shapeCast S8x16x64x1
      (shapeCast S8x16x64x1 (truncf (F := Ideal) .bf16 x bitsLt_bf16_f32) shapeCasts_S8x16x64_S8x16x64x1)
      shapeCasts_S8x16x64x1_S8x16x64x1)
    broadcasts_S8x16x64x1_S8x16x64x64

/-- The two spread chunks side by side: 128 lanes. -/
def leftFactor (x x' : Vec Ideal S8x16x64 .f32) : FVec Ideal S8x16x64x128 .bf16 :=
  concatenate S8x16x64x128 3 [⟨S8x16x64x64, colSpread x⟩, ⟨S8x16x64x64, colSpread x'⟩]
    concatenates_S8x16x64x64_S8x16x64x64_S8x16x64x128_d3

/-- The two gate chunks side by side, spread along the input-feature axis. -/
def rightFactor (g g' : Vec Ideal S8x16x64 .bf16) : FVec Ideal S8x16x64x128 .bf16 :=
  broadcastTo S8x16x64x128
    (shapeCast S8x16x1x128
      (concatenate S8x16x128 2 [⟨S8x16x64, g⟩, ⟨S8x16x64, g'⟩] concatenates_S8x16x64_S8x16x64_S8x16x128_d2)
      shapeCasts_S8x16x128_S8x16x1x128)
    broadcasts_S8x16x1x128_S8x16x64x128

/-- The trip's result is the maximum of the running maximum with the row maximum of the product of the two factors. -/
theorem trip_payload_eq (acc : FVec Ideal S8x64x128 .f32) (v32 v35 : Vec Ideal S8x16x64 .f32)
    (v38 v40 : Vec Ideal S8x16x64 .bf16) :
    k0_pay3 (F := Ideal) acc v32 v35 v38 v40
      = maximumf acc (extf .f32
          (multiReduction (F := Ideal) .maximumf [1] S8x64x128 (mulf (leftFactor v32 v35) (rightFactor v38 v40)) 0xFF80#16
            reduces_S8x16x64x128_S8x64x128 (.inr rfl) rfl) bitsLt_bf16_f32) := rfl

/-- A spread chunk at (p, r, i, l) is the chunk at (p, r, i), whatever the lane l. -/
theorem colSpread_apply (x : Vec Ideal S8x16x64 .f32) (p : Fin 8) (r : Fin 16) (i l : Fin 64) :
    colSpread x (ix4 p r i l) = x (ix3 p r i) := by
  unfold colSpread
  refine (broadcastTo_apply _ broadcasts_S8x16x64x1_S8x16x64x64 (ix4 p r i l) (ix4 p r i (0 : Fin 1)) ?_).trans ?_
  · intro a
    match a with
    | ⟨0, _⟩ => rfl
    | ⟨1, _⟩ => rfl
    | ⟨2, _⟩ => rfl
    | ⟨3, _⟩ => rfl
  · rw [shapeCast_self]
    refine (shapeCast_apply _ shapeCasts_S8x16x64_S8x16x64x1 (ix4 p r i (0 : Fin 1)) (ix3 p r i) ?_).trans ?_
    · rw [Shape.rowMajor_val_three, Shape.rowMajor_val_four]
      show ((p.val * 16 + r.val) * 64 + i.val) = (((p.val * 16 + r.val) * 64 + i.val) * 1 + 0)
      omega
    · rfl

/-- The left factor at a lane of the low half reads the first chunk. -/
theorem leftFactor_low (x x' : Vec Ideal S8x16x64 .f32) (p : Fin 8) (r : Fin 16) (i o : Fin 64) :
    leftFactor x x' (ix4 p r i (laneLo o)) = x (ix3 p r i) := by
  unfold leftFactor
  refine (concatenate_pair_apply_left (3 : Fin 4) (colSpread x) (colSpread x')
    concatenates_S8x16x64x64_S8x16x64x64_S8x16x64x128_d3 (ix4 p r i (laneLo o)) rfl (ix4 p r i o) ?_).trans
    (colSpread_apply x p r i o)
  intro b
  match b with
  | ⟨0, _⟩ => rfl
  | ⟨1, _⟩ => rfl
  | ⟨2, _⟩ => rfl
  | ⟨3, _⟩ => rfl

/-- The left factor at a lane of the high half reads the second chunk. -/
theorem leftFactor_high (x x' : Vec Ideal S8x16x64 .f32) (p : Fin 8) (r : Fin 16) (i o : Fin 64) :
    leftFactor x x' (ix4 p r i (laneHi o)) = x' (ix3 p r i) := by
  unfold leftFactor
  refine (concatenate_pair_apply_right (3 : Fin 4) (colSpread x) (colSpread x')
    concatenates_S8x16x64x64_S8x16x64x64_S8x16x64x128_d3 (ix4 p r i (laneHi o)) rfl rfl (ix4 p r i o) ?_ ?_).trans
    (colSpread_apply x' p r i o)
  · intro b hb
    match b, hb with
    | ⟨0, _⟩, _ => rfl
    | ⟨1, _⟩, _ => rfl
    | ⟨2, _⟩, _ => rfl
    | ⟨3, _⟩, hb => exact absurd rfl hb
  · show o.val + 64 = 64 + o.val
    omega

/-- The right factor at a lane of the low half reads the first gate chunk, whatever the input feature i. -/
theorem rightFactor_low (g g' : Vec Ideal S8x16x64 .bf16) (p : Fin 8) (r : Fin 16) (i o : Fin 64) :
    rightFactor g g' (ix4 p r i (laneLo o)) = g (ix3 p r o) := by
  unfold rightFactor
  refine (broadcastTo_apply _ broadcasts_S8x16x1x128_S8x16x64x128 (ix4 p r i (laneLo o))
    (ix4 p r (0 : Fin 1) (laneLo o)) ?_).trans ?_
  · intro a
    match a with
    | ⟨0, _⟩ => rfl
    | ⟨1, _⟩ => rfl
    | ⟨2, _⟩ => rfl
    | ⟨3, _⟩ => rfl
  refine (shapeCast_apply _ shapeCasts_S8x16x128_S8x16x1x128 (ix4 p r (0 : Fin 1) (laneLo o)) (ix3 p r (laneLo o)) ?_).trans ?_
  · rw [Shape.rowMajor_val_three, Shape.rowMajor_val_four]
    show ((p.val * 16 + r.val) * 128 + o.val) = (((p.val * 16 + r.val) * 1 + 0) * 128 + o.val)
    omega
  refine concatenate_pair_apply_left (2 : Fin 3) g g' concatenates_S8x16x64_S8x16x64_S8x16x128_d2
    (ix3 p r (laneLo o)) rfl (ix3 p r o) ?_
  intro b
  match b with
  | ⟨0, _⟩ => rfl
  | ⟨1, _⟩ => rfl
  | ⟨2, _⟩ => rfl

/-- The right factor at a lane of the high half reads the second gate chunk, whatever the input feature i. -/
theorem rightFactor_high (g g' : Vec Ideal S8x16x64 .bf16) (p : Fin 8) (r : Fin 16) (i o : Fin 64) :
    rightFactor g g' (ix4 p r i (laneHi o)) = g' (ix3 p r o) := by
  unfold rightFactor
  refine (broadcastTo_apply _ broadcasts_S8x16x1x128_S8x16x64x128 (ix4 p r i (laneHi o))
    (ix4 p r (0 : Fin 1) (laneHi o)) ?_).trans ?_
  · intro a
    match a with
    | ⟨0, _⟩ => rfl
    | ⟨1, _⟩ => rfl
    | ⟨2, _⟩ => rfl
    | ⟨3, _⟩ => rfl
  refine (shapeCast_apply _ shapeCasts_S8x16x128_S8x16x1x128 (ix4 p r (0 : Fin 1) (laneHi o)) (ix3 p r (laneHi o)) ?_).trans ?_
  · rw [Shape.rowMajor_val_three, Shape.rowMajor_val_four]
    show ((p.val * 16 + r.val) * 128 + (64 + o.val)) = (((p.val * 16 + r.val) * 1 + 0) * 128 + (64 + o.val))
    omega
  refine concatenate_pair_apply_right (2 : Fin 3) g g' concatenates_S8x16x64_S8x16x64_S8x16x128_d2
    (ix3 p r (laneHi o)) rfl rfl (ix3 p r o) ?_ ?_
  · intro b hb
    match b, hb with
    | ⟨0, _⟩, _ => rfl
    | ⟨1, _⟩, _ => rfl
    | ⟨2, _⟩, hb => exact absurd rfl hb
  · show o.val + 64 = 64 + o.val
    omega

/-- The result's index (p, i, l) with row r inserted on the reduced axis is (p, r, i, l). -/
theorem lift_rows (p : Fin 8) (i : Fin 64) (l : Fin 128) (r : Fin 16) :
    reduces_S8x16x64x128_S8x64x128.lift (ix3 p i l) r = ix4 p r i l := by
  funext c
  apply Fin.ext
  match c with
  | ⟨0, _⟩ => rfl
  | ⟨1, _⟩ => rfl
  | ⟨2, _⟩ => rfl
  | ⟨3, _⟩ => rfl

/-- The starting value of the row maximum is the bottom element. -/
theorem negInf_bf16 : Ideal.ofBits .bf16 0xFF80#16 = (⊥ : EReal) := by
  simp [Ideal.ofBits, Ideal.ieee]

@[simp] theorem laneLo_val (o : Fin 64) : (laneLo o).val = o.val := rfl
@[simp] theorem laneHi_val (o : Fin 64) : (laneHi o).val = 64 + o.val := rfl

/-- The maximum over the 16 rows of a product of two arrays, from minus infinity, read at (p, i, l): the fold of max
    from the bottom element over the rows r of the product of the entries at (p, r, i, l). -/
theorem rowMax_mul_apply (A B : FVec Ideal S8x16x64x128 .bf16) (p : Fin 8) (i : Fin 64) (l : Fin 128) :
    multiReduction (F := Ideal) .maximumf [1] S8x64x128 (mulf A B) 0xFF80#16
        reduces_S8x16x64x128_S8x64x128 (.inr rfl) rfl (ix3 p i l)
      = (Finset.univ : Finset (Fin 16)).fold max (⊥ : EReal) (fun r => A (ix4 p r i l) * B (ix4 p r i l)) := by
  refine (Ideal.multiReduction_maximumf_single (mulf A B) 0xFF80#16 reduces_S8x16x64x128_S8x64x128
    (.inr rfl) rfl (ix3 p i l)).trans ?_
  have hf : (mulf A B ∘ reduces_S8x16x64x128_S8x64x128.lift (ix3 p i l))
      = fun r : Fin 16 => A (ix4 p r i l) * B (ix4 p r i l) :=
    funext fun r => (congrArg (mulf A B) (lift_rows p i l r)).trans (mulf_apply A B _)
  have h0 : FloatOps.ofBits (F := Ideal) .bf16 0xFF80#16 = (⊥ : EReal) := negInf_bf16
  show Finset.fold max (FloatOps.ofBits (F := Ideal) .bf16 0xFF80#16)
      (mulf A B ∘ reduces_S8x16x64x128_S8x64x128.lift (ix3 p i l)) (Finset.univ : Finset (Fin 16)) = _
  rw [hf, h0]
  rfl

/-- ONE TRIP AT A LANE OF THE LOW HALF: the running maximum against the row maximum of the first input chunk times the
    first gate chunk. -/
theorem trip_payload_low (acc : FVec Ideal S8x64x128 .f32) (v32 v35 : Vec Ideal S8x16x64 .f32)
    (v38 v40 : Vec Ideal S8x16x64 .bf16) (p : Fin 8) (i o : Fin 64) :
    k0_pay3 (F := Ideal) acc v32 v35 v38 v40 (ix3 p i (laneLo o))
      = max (acc (ix3 p i (laneLo o)))
          ((Finset.univ : Finset (Fin 16)).fold max (⊥ : EReal) (fun r => v32 (ix3 p r i) * v38 (ix3 p r o))) := by
  rw [trip_payload_eq]
  refine (maximumf_apply _ _ _).trans ?_
  refine congrArg (max (acc (ix3 p i (laneLo o)))) ?_
  refine (extf_apply (φ := .bf16) (ψ := .f32) _ bitsLt_bf16_f32 _).trans ?_
  refine (rowMax_mul_apply _ _ p i (laneLo o)).trans ?_
  refine congrArg (fun f => Finset.fold max (⊥ : EReal) f (Finset.univ : Finset (Fin 16))) (funext fun r => ?_)
  rw [leftFactor_low, rightFactor_low]

/-- ONE TRIP AT A LANE OF THE HIGH HALF: the running maximum against the row maximum of the second input chunk times
    the second gate chunk. -/
theorem trip_payload_high (acc : FVec Ideal S8x64x128 .f32) (v32 v35 : Vec Ideal S8x16x64 .f32)
    (v38 v40 : Vec Ideal S8x16x64 .bf16) (p : Fin 8) (i o : Fin 64) :
    k0_pay3 (F := Ideal) acc v32 v35 v38 v40 (ix3 p i (laneHi o))
      = max (acc (ix3 p i (laneHi o)))
          ((Finset.univ : Finset (Fin 16)).fold max (⊥ : EReal) (fun r => v35 (ix3 p r i) * v40 (ix3 p r o))) := by
  rw [trip_payload_eq]
  refine (maximumf_apply _ _ _).trans ?_
  refine congrArg (max (acc (ix3 p i (laneHi o)))) ?_
  refine (extf_apply (φ := .bf16) (ψ := .f32) _ bitsLt_bf16_f32 _).trans ?_
  refine (rowMax_mul_apply _ _ p i (laneHi o)).trans ?_
  refine congrArg (fun f => Finset.fold max (⊥ : EReal) f (Finset.univ : Finset (Fin 16))) (funext fun r => ?_)
  rw [leftFactor_high, rightFactor_high]

end Cert.Pool

end
-- ==== Proof.Finish.lean ====
/-
  The kernel's last payload, read at an index. After the streaming loop the running maximum has 128 lanes: lanes
  0..63 hold the maximum over one half of the nodes and lanes 64..127 over the other half, for the same 64 output
  features. The payload merges the two halves by a maximum, sums over the 64 input features and divides by 64.
-/
import proofs.«416149_j40097814676120_3_alg».proof.Proof.TripMax
import Idealize.ShloMosaic.Lib.ValueIdx
import Idealize.ShloMosaic.Lib.Pipeline.Value
import Idealize.ShloMosaic.PureOps.Ideal.Laws

set_option maxRecDepth 16384

noncomputable section

namespace Cert.Pool

open Idealize.ShloMosaic Idealize.ShloMosaic.ValueIdx Cert.KernelIdeal Cert.KernelIdeal.Gen

/-- The reduced index (p, o) with input feature `i` put back on axis 1 is (p, i, o). -/
theorem lift_feature (p : Fin 8) (o : Fin 64) (i : Fin (S8x64x64.size 1)) :
    reduces_S8x64x64_S8x64.lift (ix2 p o) i = ix3 p (⟨i.val, i.isLt⟩ : Fin 64) o := by
  funext c; apply Fin.ext
  match c with
  | ⟨0, _⟩ => rfl
  | ⟨1, _⟩ => rfl
  | ⟨2, _⟩ => rfl

/-- The last payload at (p, o): the two lane halves merged, summed over the input features, divided by 64. -/
theorem finish_payload_apply (v19 : FVec Ideal S8x64x128 .f32) (p : Fin 8) (o : Fin 64) :
    k0_pay4 (F := Ideal) v19 (ix2 p o)
      = Ideal.div (∑ i : Fin 64, max (v19 (ix3 p i (laneLo o))) (v19 (ix3 p i (laneHi o))))
          (Ideal.ofBits .f32 0x42800000#32) := by
  unfold k0_pay4
  refine (divf_apply _ _ _).trans ?_
  refine congrArg₂ Ideal.div ?_ rfl
  refine (Ideal.multiReduction_add_single _ _ reduces_S8x64x64_S8x64 (.inl rfl) rfl (ix2 p o)).trans ?_
  refine Finset.sum_congr rfl fun i _ => ?_
  rw [lift_feature]
  refine (maximumf_apply _ _ _).trans ?_
  refine congrArg₂ max ?_ ?_
  · exact extractStridedSlice_apply _ _ _ _ _ (fun a => by
      match a with
      | ⟨0, _⟩ => show _ = 0 + _; simp
      | ⟨1, _⟩ => show _ = 0 + _; simp
      | ⟨2, _⟩ => show _ = 0 + _; simp)
  · exact extractStridedSlice_apply _ _ _ _ _ (fun a => by
      match a with
      | ⟨0, _⟩ => show _ = 0 + _; simp
      | ⟨1, _⟩ => show _ = 0 + _; simp
      | ⟨2, _⟩ => show (64 + o.val) = 64 + _; rfl)

end Cert.Pool

end
-- ==== Proof.RunningMax.lean ====
/-
  A maximum over 512 nodes taken in 16 rounds of two interleaved groups.

  Round k looks at the 32 nodes 32k .. 32k+31: the first 16 of them feed one running maximum, the last 16 another.
  Both running maxima start at the bottom element. After 16 rounds the first holds the maximum over the nodes whose
  position within their round is below 16, the second over the others, and the larger of the two is the maximum over
  all 512 nodes. Everything is said through the universal property of a maximum (an upper bound of the fold is an
  upper bound of every term), so no order of evaluation matters.
-/
import Mathlib.Data.Finset.Fold
import Mathlib.Data.Fintype.Basic
import Mathlib.Order.Lattice
import Mathlib.Order.BoundedOrder.Basic
import Mathlib.Tactic.Ring

namespace Cert.Pool

variable {α : Type*} [LinearOrder α] [OrderBot α]

/-- One interleaved group: `c` is 0 for the first half of each round and 16 for the second. A running maximum that
    starts at the bottom and takes in, at round `k`, the 16 nodes `32k + c .. 32k + c + 15` is, after `k` rounds, bounded
    by `z` exactly when every node of the group among the first `32k` is. -/
theorem running_max_le_iff (f : Fin 512 → α) (c : ℕ) (hc : c = 0 ∨ c = 16) (s : ℕ → α) (h0 : s 0 = ⊥)
    (hs : ∀ k (hk : k < 16), s (k + 1)
      = max (s k) ((Finset.univ : Finset (Fin 16)).fold max ⊥ (fun r => f ⟨32 * k + c + r.val, by omega⟩))) :
    ∀ k, k ≤ 16 → ∀ z, s k ≤ z ↔ ∀ n : Fin 512, n.val < 32 * k → n.val % 32 / 16 = c / 16 → f n ≤ z := by
  intro k
  induction k with
  | zero =>
    intro _ z
    rw [h0]
    exact ⟨fun _ n hn => absurd hn (by omega), fun _ => bot_le⟩
  | succ k ih =>
    intro hk z
    rw [hs k (by omega), max_le_iff, ih (by omega) z, Finset.fold_max_le]
    constructor
    · rintro ⟨hprev, -, hnew⟩ n hn hhalf
      by_cases hlt : n.val < 32 * k
      · exact hprev n hlt hhalf
      · have hr : n.val - 32 * k - c < 16 := by rcases hc with rfl | rfl <;> omega
        have hn' := hnew ⟨n.val - 32 * k - c, hr⟩ (Finset.mem_univ _)
        have e : (⟨32 * k + c + (n.val - 32 * k - c), by omega⟩ : Fin 512) = n :=
          Fin.ext (by show 32 * k + c + (n.val - 32 * k - c) = n.val; rcases hc with rfl | rfl <;> omega)
        simpa only [e] using hn'
    · intro h
      refine ⟨fun n hn hhalf => h n (by omega) hhalf, bot_le, fun r _ => ?_⟩
      exact h ⟨32 * k + c + r.val, by omega⟩ (by show 32 * k + c + r.val < 32 * (k + 1); rcases hc with rfl | rfl <;> omega)
        (by show (32 * k + c + r.val) % 32 / 16 = c / 16; rcases hc with rfl | rfl <;> omega)

/-- The two groups together: the larger of the two running maxima after all 16 rounds is the maximum over all 512
    nodes. -/
theorem max_running_eq_fold (f : Fin 512 → α) (sLo sHi : ℕ → α) (hLo0 : sLo 0 = ⊥) (hHi0 : sHi 0 = ⊥)
    (hLo : ∀ k (hk : k < 16), sLo (k + 1)
      = max (sLo k) ((Finset.univ : Finset (Fin 16)).fold max ⊥ (fun r => f ⟨32 * k + 0 + r.val, by omega⟩)))
    (hHi : ∀ k (hk : k < 16), sHi (k + 1)
      = max (sHi k) ((Finset.univ : Finset (Fin 16)).fold max ⊥ (fun r => f ⟨32 * k + 16 + r.val, by omega⟩))) :
    max (sLo 16) (sHi 16) = (Finset.univ : Finset (Fin 512)).fold max ⊥ f := by
  refine eq_of_forall_ge_iff fun z => ?_
  rw [max_le_iff, running_max_le_iff f 0 (.inl rfl) sLo hLo0 hLo 16 le_rfl z,
    running_max_le_iff f 16 (.inr rfl) sHi hHi0 hHi 16 le_rfl z, Finset.fold_max_le]
  constructor
  · rintro ⟨h1, h2⟩
    refine ⟨bot_le, fun n _ => ?_⟩
    by_cases hh : n.val % 32 / 16 = 0
    · exact h1 n (by omega) (by omega)
    · exact h2 n (by omega) (by omega)
  · rintro ⟨-, h⟩
    exact ⟨fun n _ _ => h n (Finset.mem_univ _), fun n _ _ => h n (Finset.mem_univ _)⟩

end Cert.Pool
-- ==== Proof.GateBlock.lean ====
/-
  The gate block of the kernel, read at one index.

  The kernel flattens its input block of 8 batch rows, 512 nodes and 64 features to 4096 rows of 64 features, takes
  the product with the 64 x 64 weight contracted over the feature axis of both, restores the three axes, adds the
  bias row to every node, and applies the logistic function. On the extended reals the format changes are the
  identity and the product into a zero accumulator is the plain sum, so the element at batch row p, node n and
  output feature o is the logistic function of  sum_k x p n k * W o k + bias o : the gate of node n at o for the
  slab of batch row p. Flattening is by row-major position: row 512 * p + n of the flat block is node n of row p.
-/
import proofs.«416149_j40097814676120_3_alg».proof.Proof.Spec
import proofs.«416149_j40097814676120_3_alg».proof.Proof.Gen.KernelIdeal.Value
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.Pool

open Cert.KernelIdeal Cert.KernelIdeal.Gen Idealize.ShloMosaic Idealize.ShloMosaic.ValueIdx

/-! ## The operand indices of the product: rows by features times output features by features -/

/-- The left operand's row is the result's row. -/
theorem lhs_dot_S4096x64_S64x64_S4096x64_1_1_0_0_n_n_0 (i : S4096x64.Idx) (q : dot_S4096x64_S64x64_S4096x64_1_1_0_0_n_n.contr.Idx) :
    (dot_S4096x64_S64x64_S4096x64_1_1_0_0_n_n.lhsIdx i q 0).val = (i 0).val := by
  unfold DotDims.lhsIdx
  rw [dif_neg (show ¬(0 : Fin S4096x64.rank) ∈ dot_S4096x64_S64x64_S4096x64_1_1_0_0_n_n.lhsBatch by decide), dif_pos (show (0 : Fin S4096x64.rank) ∈ dot_S4096x64_S64x64_S4096x64_1_1_0_0_n_n.lhsNonContracting by decide)]
  rfl
/-- The left operand's feature is the contraction position. -/
theorem lhs_dot_S4096x64_S64x64_S4096x64_1_1_0_0_n_n_1 (i : S4096x64.Idx) (q : dot_S4096x64_S64x64_S4096x64_1_1_0_0_n_n.contr.Idx) :
    (dot_S4096x64_S64x64_S4096x64_1_1_0_0_n_n.lhsIdx i q 1).val = (q ⟨0, by decide⟩).val :=
  dot_S4096x64_S64x64_S4096x64_1_1_0_0_n_n.lhsIdx_val_of_single rfl i q
/-- The right operand's row is the result's column. -/
theorem rhs_dot_S4096x64_S64x64_S4096x64_1_1_0_0_n_n_0 (i : S4096x64.Idx) (q : dot_S4096x64_S64x64_S4096x64_1_1_0_0_n_n.contr.Idx) :
    (dot_S4096x64_S64x64_S4096x64_1_1_0_0_n_n.rhsIdx i q 0).val = (i 1).val := by
  unfold DotDims.rhsIdx
  rw [dif_neg (show ¬(0 : Fin S64x64.rank) ∈ dot_S4096x64_S64x64_S4096x64_1_1_0_0_n_n.rhsBatch by decide), dif_pos (show (0 : Fin S64x64.rank) ∈ dot_S4096x64_S64x64_S4096x64_1_1_0_0_n_n.rhsNonContracting by decide)]
  rfl
/-- The right operand's feature is the contraction position. -/
theorem rhs_dot_S4096x64_S64x64_S4096x64_1_1_0_0_n_n_1 (i : S4096x64.Idx) (q : dot_S4096x64_S64x64_S4096x64_1_1_0_0_n_n.contr.Idx) :
    (dot_S4096x64_S64x64_S4096x64_1_1_0_0_n_n.rhsIdx i q 1).val = (q ⟨0, by decide⟩).val :=
  dot_S4096x64_S64x64_S4096x64_1_1_0_0_n_n.rhsIdx_val_of_single rfl i q

/-- The product into the zero accumulator, read at row r and column o: the sum over the 64 features of the left
    operand at (r, k) times the right operand at (o, k). -/
theorem flat_product_apply (a : FVec Ideal S4096x64 .bf16) (w : FVec Ideal S64x64 .bf16) (r : Fin 4096) (o : Fin 64) :
    matmul (F := Ideal) dot_S4096x64_S64x64_S4096x64_1_1_0_0_n_n none a w (constant (F := Ideal) S4096x64 .f32 0x00000000#32) (ix2 r o)
      = ∑ k : Fin 64, a (ix2 r k) * w (ix2 o k) := by
  refine (Ideal.matmul_constant_zero_apply dot_S4096x64_S64x64_S4096x64_1_1_0_0_n_n none a w (ix2 r o)).trans ?_
  rw [← Equiv.sum_comp (ValueIdx.contrEquiv1 dot_S4096x64_S64x64_S4096x64_1_1_0_0_n_n 64 rfl rfl).symm]
  refine Finset.sum_congr rfl fun k _ => ?_
  have hk := ValueIdx.contrEquiv1_symm_val dot_S4096x64_S64x64_S4096x64_1_1_0_0_n_n 64 rfl rfl k
  have el : dot_S4096x64_S64x64_S4096x64_1_1_0_0_n_n.lhsIdx (ix2 r o) ((ValueIdx.contrEquiv1 dot_S4096x64_S64x64_S4096x64_1_1_0_0_n_n 64 rfl rfl).symm k) = ix2 r k := funext fun a => Fin.ext (by
    match a with
    | ⟨0, _⟩ => exact lhs_dot_S4096x64_S64x64_S4096x64_1_1_0_0_n_n_0 _ _
    | ⟨1, _⟩ => exact (lhs_dot_S4096x64_S64x64_S4096x64_1_1_0_0_n_n_1 _ _).trans hk)
  have er : dot_S4096x64_S64x64_S4096x64_1_1_0_0_n_n.rhsIdx (ix2 r o) ((ValueIdx.contrEquiv1 dot_S4096x64_S64x64_S4096x64_1_1_0_0_n_n 64 rfl rfl).symm k) = ix2 o k := funext fun a => Fin.ext (by
    match a with
    | ⟨0, _⟩ => exact rhs_dot_S4096x64_S64x64_S4096x64_1_1_0_0_n_n_0 _ _
    | ⟨1, _⟩ => exact (rhs_dot_S4096x64_S64x64_S4096x64_1_1_0_0_n_n_1 _ _).trans hk)
  rw [el, er]

/-! ## The two flattenings and the bias row -/

/-- Row 512 * p + n of the flattened block is node n of batch row p. -/
theorem flat_rows_apply {α : Type} (x : S8x512x64.Idx → α) (h : S8x512x64.ShapeCasts S4096x64)
    (p : Fin 8) (n : Fin 512) (k : Fin 64) (hr : 512 * p.val + n.val < 4096) :
    shapeCast S4096x64 x h (ix2 (⟨512 * p.val + n.val, hr⟩ : Fin 4096) k) = x (ix3 p n k) :=
  shapeCast_apply x h _ (ix3 p n k) (by
    rw [Shape.rowMajor_val_three, Shape.rowMajor_val_two]
    show (p.val * 512 + n.val) * 64 + k.val = (512 * p.val + n.val) * 64 + k.val
    omega)

/-- Node n of batch row p of the restored block is row 512 * p + n of the flat one. -/
theorem block_rows_apply {α : Type} (y : S4096x64.Idx → α) (h : S4096x64.ShapeCasts S8x512x64)
    (p : Fin 8) (n : Fin 512) (o : Fin 64) (hr : 512 * p.val + n.val < 4096) :
    shapeCast S8x512x64 y h (ix3 p n o) = y (ix2 (⟨512 * p.val + n.val, hr⟩ : Fin 4096) o) :=
  shapeCast_apply y h _ (ix2 (⟨512 * p.val + n.val, hr⟩ : Fin 4096) o) (by
    rw [Shape.rowMajor_val_three, Shape.rowMajor_val_two]
    show (512 * p.val + n.val) * 64 + o.val = (p.val * 512 + n.val) * 64 + o.val
    omega)

/-- The bias row, given two unit axes and repeated over the batch rows and nodes, read at (p, n, o) is its entry o. -/
theorem bias_block_apply {α : Type} (b : S1x64.Idx → α) (h1 : S1x64.ShapeCasts S1x64) (h2 : S1x64.ShapeCasts S1x1x64)
    (h3 : S1x1x64.Broadcasts S8x512x64) (p : Fin 8) (n : Fin 512) (o : Fin 64) :
    broadcastTo S8x512x64 (shapeCast S1x1x64 (shapeCast S1x64 b h1) h2) h3 (ix3 p n o) = b (ix2 (0 : Fin 1) o) := by
  rw [shapeCast_self]
  refine (broadcastTo_apply _ h3 (ix3 p n o) (ix3 (0 : Fin 1) (0 : Fin 1) o) (fun a => ?_)).trans ?_
  · match a with
    | ⟨0, _⟩ => show 0 = if (1 : Nat) = 1 then 0 else p.val; rw [if_pos rfl]
    | ⟨1, _⟩ => show 0 = if (1 : Nat) = 1 then 0 else n.val; rw [if_pos rfl]
    | ⟨2, _⟩ => show o.val = if (64 : Nat) = 1 then 0 else o.val; rw [if_neg (by decide)]
  · exact shapeCast_apply b h2 _ (ix2 (0 : Fin 1) o) (by
      rw [Shape.rowMajor_val_two, Shape.rowMajor_val_three]
      show 0 * 64 + o.val = (0 * 1 + 0) * 64 + o.val
      omega)

/-! ## The gate block at an index -/

/-- What the kernel stores into its scratch, read at batch row p, node n and output feature o, is the gate of node n
    at o for the slab of batch row p, the weight and the bias row. -/
theorem gate_payload_apply (v0 : Vec Ideal S64x64 .f32) (v2 : Vec Ideal S1x64 .f32) (v4 : Vec Ideal S8x512x64 .f32)
    (p : Fin 8) (n : Fin 512) (o : Fin 64) :
    k0_pay1 (F := Ideal) v0 v2 v4 (ix3 p n o)
      = gate (fun n' k => v4 (ix3 p n' k)) (fun o' k => v0 (ix2 o' k)) (fun o' => v2 (ix2 (0 : Fin 1) o')) n o := by
  have hr : 512 * p.val + n.val < 4096 := by have := p.isLt; have := n.isLt; omega
  unfold k0_pay1 gate
  rw [shapeCast_self]
  show Ideal.logistic (_ + _) = Ideal.logistic (_ + _)
  refine congrArg Ideal.logistic (congrArg₂ (· + ·) ?_ ?_)
  · refine (block_rows_apply _ _ p n o hr).trans ?_
    refine (flat_product_apply _ _ _ o).trans ?_
    refine Finset.sum_congr rfl fun k _ => ?_
    exact congrArg₂ (· * ·) (flat_rows_apply _ _ p n k hr) rfl
  · exact bias_block_apply v2 _ _ _ p n o

end Cert.Pool

end
-- ==== Proof.BlockValue.lean ====
/-
  One grid point's output block is the specification, row by row: the carried value of the streaming loop is, on the
  low lanes, the running maximum of the gated outer product over the first 16 nodes of every round and, on the high
  lanes, over the last 16; the last payload merges the two, which is the maximum over all 512 nodes, then sums over
  the input features and divides by 64.
-/
import proofs.«416149_j40097814676120_3_alg».proof.Proof.BlockTerm
import proofs.«416149_j40097814676120_3_alg».proof.Proof.Spec
import proofs.«416149_j40097814676120_3_alg».proof.Proof.Finish
import proofs.«416149_j40097814676120_3_alg».proof.Proof.RunningMax
import proofs.«416149_j40097814676120_3_alg».proof.Proof.GateBlock
import proofs.«416149_j40097814676120_3_alg».proof.Proof.TripMax
import Idealize.ShloMosaic.Lib.ValueIdx
import Idealize.ShloMosaic.PureOps.Ideal.Laws

set_option maxRecDepth 16384

noncomputable section

namespace Cert.Pool

open Cert.KernelIdeal Cert.KernelIdeal.Gen Idealize.ShloMosaic Idealize.ShloMosaic.TcCoe Idealize.SL.Sem Idealize.ShloMosaic.ValueIdx

/-- The loop runs 16 rounds. -/
theorem rounds_eq : k0_t1_loop.trips = 16 := by decide

theorem negInf_f32 : Ideal.ofBits .f32 0xFF800000#32 = (⊥ : EReal) := by simp [Ideal.ofBits, Ideal.ieee]

/-- A 16-row chunk of the input block, read where round `k` loads it (rows `32k + c ..`, `c` the chunk's start within
    the round), is the block at those rows. -/
theorem chunk_input_lo (arg1 : Memref sig .tc .vmem S8x512x64 .f32) (harg1 : arg1.IsWhole) (x0 : Vec Ideal S8x512x64 .f32)
    (k : Fin k0_t1_loop.trips) (hk : k.val < 16) (p : Fin 8) (r : Fin 16) (i : Fin 64) :
    View.readAt (Elt Ideal) arg1.view (Rect.unit (s := S8x512x64) (k0_off1 k) S8x16x64.size (k0_off1_inb k)).toLoadRect (harg1.unread x0) (ix3 p r i)
      = x0 (ix3 p (⟨32 * k.val + 0 + r.val, by omega⟩ : Fin 512) i) := by
  refine (harg1.readAt_unread x0 _ _).trans (congrArg x0 ?_)
  funext a; apply Fin.ext
  match a with
  | ⟨0, _⟩ => show (k0_off1 k) 0 + 1 * p.val = p.val; rw [k0_off1_eq]; simp
  | ⟨1, _⟩ => show (k0_off1 k) 1 + 1 * r.val = 32 * k.val + 0 + r.val; rw [k0_off1_eq]; simp
  | ⟨2, _⟩ => show (k0_off1 k) 2 + 1 * i.val = i.val; rw [k0_off1_eq]; simp

theorem chunk_input_hi (arg1 : Memref sig .tc .vmem S8x512x64 .f32) (harg1 : arg1.IsWhole) (x0 : Vec Ideal S8x512x64 .f32)
    (k : Fin k0_t1_loop.trips) (hk : k.val < 16) (p : Fin 8) (r : Fin 16) (i : Fin 64) :
    View.readAt (Elt Ideal) arg1.view (Rect.unit (s := S8x512x64) (k0_off2 k) S8x16x64.size (k0_off2_inb k)).toLoadRect (harg1.unread x0) (ix3 p r i)
      = x0 (ix3 p (⟨32 * k.val + 16 + r.val, by omega⟩ : Fin 512) i) := by
  refine (harg1.readAt_unread x0 _ _).trans (congrArg x0 ?_)
  funext a; apply Fin.ext
  match a with
  | ⟨0, _⟩ => show (k0_off2 k) 0 + 1 * p.val = p.val; rw [k0_off2_eq]; simp
  | ⟨1, _⟩ => show (k0_off2 k) 1 + 1 * r.val = 32 * k.val + 16 + r.val; rw [k0_off2_eq]; simp
  | ⟨2, _⟩ => show (k0_off2 k) 2 + 1 * i.val = i.val; rw [k0_off2_eq]; simp

/-- The same two chunks of the gate block, read back from the scratch the point stored it in. -/
theorem chunk_gate_lo (arg5 : Memref sig .tc .vmem S8x512x64 .bf16) (g : Vec Ideal S8x512x64 .bf16)
    (k : Fin k0_t1_loop.trips) (hk : k.val < 16) (p : Fin 8) (r : Fin 16) (o : Fin 64) :
    View.readAt (Elt Ideal) arg5.view (Rect.unit (s := S8x512x64) (k0_off1 k) S8x16x64.size (k0_off1_inb k)).toLoadRect (scratchAfter arg5 g) (ix3 p r o)
      = g (ix3 p (⟨32 * k.val + 0 + r.val, by omega⟩ : Fin 512) o) := by
  refine (congrFun (View.readAt_writes_junk_eq_canon _ _ _) _).trans ?_
  show View.canon _ _ = _
  rw [View.canon_unit_zero zeros3]
  refine congrArg g ?_
  funext a; apply Fin.ext
  match a with
  | ⟨0, _⟩ => show (k0_off1 k) 0 + 1 * p.val = p.val; rw [k0_off1_eq]; simp
  | ⟨1, _⟩ => show (k0_off1 k) 1 + 1 * r.val = 32 * k.val + 0 + r.val; rw [k0_off1_eq]; simp
  | ⟨2, _⟩ => show (k0_off1 k) 2 + 1 * o.val = o.val; rw [k0_off1_eq]; simp

theorem chunk_gate_hi (arg5 : Memref sig .tc .vmem S8x512x64 .bf16) (g : Vec Ideal S8x512x64 .bf16)
    (k : Fin k0_t1_loop.trips) (hk : k.val < 16) (p : Fin 8) (r : Fin 16) (o : Fin 64) :
    View.readAt (Elt Ideal) arg5.view (Rect.unit (s := S8x512x64) (k0_off2 k) S8x16x64.size (k0_off2_inb k)).toLoadRect (scratchAfter arg5 g) (ix3 p r o)
      = g (ix3 p (⟨32 * k.val + 16 + r.val, by omega⟩ : Fin 512) o) := by
  refine (congrFun (View.readAt_writes_junk_eq_canon _ _ _) _).trans ?_
  show View.canon _ _ = _
  rw [View.canon_unit_zero zeros3]
  refine congrArg g ?_
  funext a; apply Fin.ext
  match a with
  | ⟨0, _⟩ => show (k0_off2 k) 0 + 1 * p.val = p.val; rw [k0_off2_eq]; simp
  | ⟨1, _⟩ => show (k0_off2 k) 1 + 1 * r.val = 32 * k.val + 16 + r.val; rw [k0_off2_eq]; simp
  | ⟨2, _⟩ => show (k0_off2 k) 2 + 1 * o.val = o.val; rw [k0_off2_eq]; simp

section
variable (c : Dev nD) (i : grid0.Coords) (arg1 : Memref sig .tc .vmem S8x512x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S8x64 .f32) (harg4 : arg4.IsWhole) (arg5 : Memref sig .tc .vmem S8x512x64 .bf16) (harg5 : arg5.IsWhole)
  (x0 : Vec Ideal S8x512x64 .f32) (x1 : Vec Ideal S64x64 .f32) (x2 : Vec Ideal S1x64 .f32)

/-- The value the loop carries before round `k`. -/
abbrev carried (k : ℕ) : FVec Ideal S8x64x128 .f32 :=
  st_k0_t1 (F := Ideal) Variants.none c none i arg1 harg1 arg2 harg2 arg3 harg3 arg4 harg4 arg5 harg5 (harg1.unread x0)
    (scratchAfter arg5 (k0_pay1 x1 x2 x0)) k0_pay2 k

/-- The point's batch row `p` as the specification's slab, weight and bias. -/
abbrev slab (p : Fin 8) : Fin 512 → Fin 64 → EReal := fun n k => x0 (ix3 p n k)
abbrev weight : Fin 64 → Fin 64 → EReal := fun o' k => x1 (ix2 o' k)
abbrev biasRow : Fin 64 → EReal := fun o' => x2 (ix2 (0 : Fin 1) o')

theorem carried_zero (j : S8x64x128.Idx) : carried c i arg1 harg1 arg2 harg2 arg3 harg3 arg4 harg4 arg5 harg5 x0 x1 x2 0 j = ⊥ :=
  negInf_f32

/-- One round on the low lanes: the 16 nodes `32k ..` of the gated outer product join the running maximum. -/
theorem carried_succ_lo (k : ℕ) (hk : k < 16) (p : Fin 8) (ii o : Fin 64) :
    carried c i arg1 harg1 arg2 harg2 arg3 harg3 arg4 harg4 arg5 harg5 x0 x1 x2 (k + 1) (ix3 p ii (laneLo o))
      = max (carried c i arg1 harg1 arg2 harg2 arg3 harg3 arg4 harg4 arg5 harg5 x0 x1 x2 k (ix3 p ii (laneLo o)))
          ((Finset.univ : Finset (Fin 16)).fold max ⊥ (fun r =>
            gated (slab x0 p) (weight x1) (biasRow x2) ii o (⟨32 * k + 0 + r.val, by omega⟩ : Fin 512))) := by
  have e := st_k0_t1_succ (F := Ideal) Variants.none c none i arg1 harg1 arg2 harg2 arg3 harg3 arg4 harg4 arg5 harg5 (harg1.unread x0)
    (scratchAfter arg5 (k0_pay1 x1 x2 x0)) k0_pay2 (⟨k, rounds_eq ▸ hk⟩ : Fin k0_t1_loop.trips)
  unfold carried
  rw [e, trip_result]
  refine (trip_payload_low _ _ _ _ _ p ii o).trans ?_
  refine congrArg (max _) (congrArg (fun f => Finset.fold max ⊥ f (Finset.univ : Finset (Fin 16))) (funext fun r => ?_))
  rw [chunk_input_lo arg1 harg1 x0 _ hk, chunk_gate_lo arg5 _ _ hk, gate_payload_apply]
  rfl

/-- One round on the high lanes: the 16 nodes `32k + 16 ..`. -/
theorem carried_succ_hi (k : ℕ) (hk : k < 16) (p : Fin 8) (ii o : Fin 64) :
    carried c i arg1 harg1 arg2 harg2 arg3 harg3 arg4 harg4 arg5 harg5 x0 x1 x2 (k + 1) (ix3 p ii (laneHi o))
      = max (carried c i arg1 harg1 arg2 harg2 arg3 harg3 arg4 harg4 arg5 harg5 x0 x1 x2 k (ix3 p ii (laneHi o)))
          ((Finset.univ : Finset (Fin 16)).fold max ⊥ (fun r =>
            gated (slab x0 p) (weight x1) (biasRow x2) ii o (⟨32 * k + 16 + r.val, by omega⟩ : Fin 512))) := by
  have e := st_k0_t1_succ (F := Ideal) Variants.none c none i arg1 harg1 arg2 harg2 arg3 harg3 arg4 harg4 arg5 harg5 (harg1.unread x0)
    (scratchAfter arg5 (k0_pay1 x1 x2 x0)) k0_pay2 (⟨k, rounds_eq ▸ hk⟩ : Fin k0_t1_loop.trips)
  unfold carried
  rw [e, trip_result]
  refine (trip_payload_high _ _ _ _ _ p ii o).trans ?_
  refine congrArg (max _) (congrArg (fun f => Finset.fold max ⊥ f (Finset.univ : Finset (Fin 16))) (funext fun r => ?_))
  rw [chunk_input_hi arg1 harg1 x0 _ hk, chunk_gate_hi arg5 _ _ hk, gate_payload_apply]
  rfl

/-- THE BLOCK: what one point leaves at (p, o) of its output block is the specification's row entry for the
    point's batch row `p`. -/
theorem block_value (p : Fin 8) (o : Fin 64) :
    out0_A_3 (F := Ideal) c i arg1 harg1 arg2 harg2 arg3 harg3 arg4 harg4 arg5 harg5 x0 x1 x2 (ix2 p o)
      = outRow (slab x0 p) (weight x1) (biasRow x2) o := by
  rw [block_piece, finish_payload_apply]
  unfold outRow
  refine congrArg (fun s => Ideal.div s _) (Finset.sum_congr rfl fun ii _ => ?_)
  unfold pooled
  exact max_running_eq_fold (gated (slab x0 p) (weight x1) (biasRow x2) ii o)
    (fun k => carried c i arg1 harg1 arg2 harg2 arg3 harg3 arg4 harg4 arg5 harg5 x0 x1 x2 k (ix3 p ii (laneLo o)))
    (fun k => carried c i arg1 harg1 arg2 harg2 arg3 harg3 arg4 harg4 arg5 harg5 x0 x1 x2 k (ix3 p ii (laneHi o)))
    (carried_zero c i arg1 harg1 arg2 harg2 arg3 harg3 arg4 harg4 arg5 harg5 x0 x1 x2 _)
    (carried_zero c i arg1 harg1 arg2 harg2 arg3 harg3 arg4 harg4 arg5 harg5 x0 x1 x2 _)
    (fun k hk => carried_succ_lo c i arg1 harg1 arg2 harg2 arg3 harg3 arg4 harg4 arg5 harg5 x0 x1 x2 k hk p ii o)
    (fun k hk => carried_succ_hi c i arg1 harg1 arg2 harg2 arg3 harg3 arg4 harg4 arg5 harg5 x0 x1 x2 k hk p ii o)

end

end Cert.Pool

end
-- ==== Proof.Result.lean ====
/-
  The whole result array as one function of the three argument arrays: entry (B, o) is the specification's row
  entry `o` for batch row `B` of the input, with the weight and the bias read through their coordinates.
-/
import proofs.«416149_j40097814676120_3_alg».proof.Proof.Spec
import Idealize.ShloMosaic.Lib.ValueIdx

noncomputable section

namespace Cert.Pool

open Idealize.ShloMosaic Idealize.ShloMosaic.ValueIdx

/-- Batch row `B` of the input array as a slab of 512 node rows. -/
abbrev slabOf (x : (⟨3, ![32, 512, 64]⟩ : Shape).Idx → EReal) (B : Fin 32) : Fin 512 → Fin 64 → EReal :=
  fun n k => x (ix3 B n k)
/-- The weight array by its two coordinates. -/
abbrev weightOf (W : (⟨2, ![64, 64]⟩ : Shape).Idx → EReal) : Fin 64 → Fin 64 → EReal := fun o k => W (ix2 o k)
/-- The bias array by its coordinate. -/
abbrev biasOf (b : (⟨1, ![64]⟩ : Shape).Idx → EReal) : Fin 64 → EReal := fun o => b (ix1 o)

/-- The result array of the pooled, gated outer product. -/
def resultOf (x : (⟨3, ![32, 512, 64]⟩ : Shape).Idx → EReal) (W : (⟨2, ![64, 64]⟩ : Shape).Idx → EReal)
    (b : (⟨1, ![64]⟩ : Shape).Idx → EReal) : (⟨2, ![32, 64]⟩ : Shape).Idx → EReal :=
  fun j => outRow (slabOf x (j 0)) (weightOf W) (biasOf b) (j 1)

theorem resultOf_apply (x : (⟨3, ![32, 512, 64]⟩ : Shape).Idx → EReal) (W : (⟨2, ![64, 64]⟩ : Shape).Idx → EReal)
    (b : (⟨1, ![64]⟩ : Shape).Idx → EReal) (B : Fin 32) (o : Fin 64) :
    resultOf x W b (ix2 B o) = outRow (slabOf x B) (weightOf W) (biasOf b) o := rfl

end Cert.Pool

end
-- ==== Proof.Final.lean ====
/-
  From blocks to the array. Each of the four grid points stages batch rows 8t .. 8t+7 of the input, the whole weight
  and the bias row, and writes back rows 8t .. 8t+7 of the result; what it writes back is the specification's rows
  for those batch rows, so the four blocks together are the specification's whole result array.
-/
import proofs.«416149_j40097814676120_3_alg».proof.Proof.BlockValue
import proofs.«416149_j40097814676120_3_alg».proof.Proof.Result
import Idealize.ShloMosaic.Lib.Pipeline.Value
import Idealize.ShloMosaic.Lib.ValueIdx
import Idealize.ShloMosaic.Lib.StableHlo.Run

set_option maxRecDepth 16384

noncomputable section

namespace Cert.Pool

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The printed index maps over the grid: the input and the output move one block of 8 batch rows per point, the
    weight and the bias stay. -/
theorem index_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The blocks of a point, named at their literal types. -/
abbrev xblk (c : Dev nD) (t : Fin cfg0.N) : Vec Ideal S8x512x64 .f32 := iblk m c 0 t
abbrev wblk (c : Dev nD) (t : Fin cfg0.N) : Vec Ideal S64x64 .f32 := iblk m c 1 t
abbrev bblk (c : Dev nD) (t : Fin cfg0.N) : Vec Ideal S1x64 .f32 := iblk m c 2 t

/-- The arrays the region finds, named at their literal types. -/
abbrev xarr (c : Dev nD) : S32x512x64.Idx → EReal := m ((c : Thread nD τ).loc main_arg0)
abbrev warr (c : Dev nD) : S64x64.Idx → EReal := m ((c : Thread nD τ).loc main_arg1)
abbrev barr (c : Dev nD) : S64.Idx → EReal := m ((c : Thread nD τ).loc main_arg2)

theorem grid_lt (t : Fin cfg0.N) : t.val < 4 := by
  have h : t.val < grid0.N := t.isLt
  rw [N_0] at h; exact h

/-- Point `t`'s input block is batch rows `8t .. 8t+7` of the input array. -/
theorem xblk_apply (c : Dev nD) (t : Fin cfg0.N) (p : Fin 8) (n : Fin 512) (k : Fin 64) :
    xblk m c t (ix3 p n k) = xarr m c (ix3 (⟨8 * t.val + p.val, by have := grid_lt t; omega⟩ : Fin 32) n k) := by
  show V m c main_arg0 (((cfg0.win 0).blk t).view.emb (ix3 p n k)) = _
  rw [V_main_arg0]
  refine congrArg (m ((c : Thread nD τ).loc main_arg0)) ?_
  obtain ⟨e0, e1, e2, -⟩ := index_facts t
  funext a; apply Fin.ext
  match a with
  | ⟨0, _⟩ => show win0_0.index t (0 : Fin 3) * 8 + 1 * p.val = 8 * t.val + p.val; omega
  | ⟨1, _⟩ => show win0_0.index t (1 : Fin 3) * 512 + 1 * n.val = n.val; omega
  | ⟨2, _⟩ => show win0_0.index t (2 : Fin 3) * 64 + 1 * k.val = k.val; omega

/-- Every point's weight block is the whole weight array. -/
theorem wblk_apply (c : Dev nD) (t : Fin cfg0.N) (o k : Fin 64) :
    wblk m c t (ix2 o k) = warr m c (ix2 o k) := by
  show V m c main_arg1 (((cfg0.win 1).blk t).view.emb (ix2 o k)) = _
  rw [V_main_arg1]
  refine congrArg (m ((c : Thread nD τ).loc main_arg1)) ?_
  obtain ⟨-, -, -, e0, e1, -⟩ := index_facts t
  funext a; apply Fin.ext
  match a with
  | ⟨0, _⟩ => show win0_1.index t (0 : Fin 2) * 64 + 1 * o.val = o.val; omega
  | ⟨1, _⟩ => show win0_1.index t (1 : Fin 2) * 64 + 1 * k.val = k.val; omega

/-- The bias the region finds: the host's reshape of the bias array to one row. -/
theorem bias_row (c : Dev nD) (o : Fin 64) :
    (V m c main_v0 : S1x64.Idx → EReal) (ix2 (0 : Fin 1) o) = barr m c (ix1 o) := by
  have e : (V m c main_v0 : S1x64.Idx → EReal) = shapeCast S1x64 (m ((c : Thread nD τ).loc main_arg2)) shapeCasts_S64_S1x64 := by
    dsimp only [V, hostOps0]; after_results; rfl
  rw [e]
  refine shapeCast_apply _ _ _ _ ?_
  show (S64.rowMajor (ix1 o)).val = (S1x64.rowMajor (ix2 (0 : Fin 1) o)).val
  rw [Shape.rowMajor_val_one, Shape.rowMajor_val_two]
  show o.val = 0 * 64 + o.val
  omega

/-- Every point's bias block is that row. -/
theorem bblk_apply (c : Dev nD) (t : Fin cfg0.N) (o : Fin 64) :
    bblk m c t (ix2 (0 : Fin 1) o) = barr m c (ix1 o) := by
  refine Eq.trans ?_ (bias_row m c o)
  show V m c main_v0 (((cfg0.win 2).blk t).view.emb (ix2 (0 : Fin 1) o)) = _
  refine congrArg (V m c main_v0) ?_
  obtain ⟨-, -, -, -, -, e0, e1, -⟩ := index_facts t
  funext a; apply Fin.ext
  match a with
  | ⟨0, _⟩ => show win0_2.index t (0 : Fin 2) * 1 + 1 * 0 = 0; omega
  | ⟨1, _⟩ => show win0_2.index t (1 : Fin 2) * 64 + 1 * o.val = o.val; omega

/-- The result array over the argument arrays of core `c`. -/
abbrev result (c : Dev nD) : Buf (Elt Ideal) ((c : Thread nD τ).loc main_v1) :=
  resultOf (xarr m c) (warr m c) (barr m c)

/-- WHAT POINT `t` WRITES BACK is block `t` of the result array. -/
theorem flushed_eq (c : Dev nD) (t : Fin cfg0.N) :
    (dats m 0 c).flushed 3 t = ((cfg0.win 3).blk t).view.read (Elt Ideal) (result m c) := by
  rw [Cert.KernelIdeal.Value.flushed3_A]
  funext j
  obtain ⟨p, o, rfl⟩ : ∃ (p : Fin 8) (o : Fin 64), j = ix2 p o := ⟨j 0, j 1, eq_ix2 j⟩
  show out0_A_3 (F := Ideal) c (grid0.coords t) (ms0_0 t) (hs0_0 t) (ms0_1 t) (hs0_1 t) (ms0_2 t) (hs0_2 t) (ms0_3 t) (hs0_3 t) scM0_0 (Memref.isWhole_whole _) (xblk m c t) (wblk m c t) (bblk m c t) (ix2 p o)
    = result m c (((cfg0.win 3).blk t).view.emb (ix2 p o))
  refine (block_value c (grid0.coords t) (ms0_0 t) (hs0_0 t) (ms0_1 t) (hs0_1 t) (ms0_2 t) (hs0_2 t) (ms0_3 t) (hs0_3 t) scM0_0 (Memref.isWhole_whole _) (xblk m c t) (wblk m c t) (bblk m c t) p o).trans ?_
  have hj : ((cfg0.win 3).blk t).view.emb (ix2 p o) = ix2 (⟨8 * t.val + p.val, by have := grid_lt t; omega⟩ : Fin 32) o := by
    obtain ⟨-, -, -, -, -, -, -, e0, e1⟩ := index_facts t
    funext a; apply Fin.ext
    match a with
    | ⟨0, _⟩ => show win0_3.index t (0 : Fin 2) * 8 + 1 * p.val = 8 * t.val + p.val; omega
    | ⟨1, _⟩ => show win0_3.index t (1 : Fin 2) * 64 + 1 * o.val = o.val; omega
  rw [hj]
  show _ = outRow _ _ _ o
  have hx : slab (xblk m c t) p = slabOf (xarr m c) (⟨8 * t.val + p.val, by have := grid_lt t; omega⟩ : Fin 32) :=
    funext fun n => funext fun k => xblk_apply m c t p n k
  have hw : weight (wblk m c t) = weightOf (warr m c) := funext fun o' => funext fun k => wblk_apply m c t o' k
  have hb : biasRow (bblk m c t) = biasOf (barr m c) := funext fun o' => bblk_apply m c t o'
  exact congrFun (congr (congr (congrArg outRow hx) hw) hb) o

/-- An index of the result array is in point `t`'s block iff its batch row is among the point's eight. -/
theorem mem_block (t : Fin cfg0.N) (i : S32x64.Idx) :
    i ∈ ((cfg0.win 3).blk t).view.set ↔ ∀ a : Fin 2, win0_3.index t a * S8x64.size a ≤ (i a).val ∧ (i a).val < win0_3.index t a * S8x64.size a + S8x64.size a := by
  show i ∈ ((View.whole main_v1).slice (win0_3.rect t)).set ↔ _
  rw [View.set_slice_whole, Rect.mem_set_unit]
  exact Iff.rfl

/-- THE RESULT ARRAY after the run: the four points' blocks tile it. -/
theorem final (c : Dev nD) : (dats m 0 c).arrAt 3 cfg0.N = result m c :=
  (dats m 0 c).arrAt_eq_of_cover 3 (result m c) (fun t _ => flushed_eq m c t) fun i => by
    have hi0 : (i 0).val < 32 := (i 0).isLt
    have hi1 : (i 1).val < 64 := (i 1).isLt
    refine ⟨⟨(i 0).val / 8, by rw [show cfg0.N = 4 from N_0]; omega⟩, flush0_3 _, ?_⟩
    rw [mem_block]
    obtain ⟨-, -, -, -, -, -, -, e0, e1⟩ := index_facts ⟨(i 0).val / 8, by rw [show cfg0.N = 4 from N_0]; omega⟩
    intro a
    match a with
    | ⟨0, _⟩ => show win0_3.index _ (0 : Fin 2) * 8 ≤ (i 0).val ∧ (i 0).val < win0_3.index _ (0 : Fin 2) * 8 + 8; rw [e0]; show (i 0).val / 8 * 8 ≤ _ ∧ _ < (i 0).val / 8 * 8 + 8; omega
    | ⟨1, _⟩ => show win0_3.index _ (1 : Fin 2) * 64 ≤ (i 1).val ∧ (i 1).val < win0_3.index _ (1 : Fin 2) * 64 + 64; rw [e1]; omega

/-- The kernel's run with its result array named: the specification's result of the argument arrays. -/
theorem kernel_run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.Pool

end
-- ==== Proof.RefRow.lean ====
/-
  The reference computes the specification, one output entry at a time.

  Fix a batch row B and write xr n k for the input at (B, n, k). Read at an index, the reference's stages are these.
  The affine stage at (B, n, o) is the sum over the 64 input features k of xr n k * W o k, plus the bias at o. The
  next four stages negate it, exponentiate, add one and divide one by the result: on the extended reals that is, by
  definition, the logistic function of the affine value, so the gate stage at (B, n, o) is the specification's gate
  of node n at output feature o. Two broadcasts place the input along a new last axis and the gate along a new third
  axis, and their product at (B, n, i, o) is xr n i times the gate of node n at o: the gated outer product. The
  reduction over the node axis is a fold of the maximum, a commutative and associative operation, from the element
  written as minus infinity, which is the bottom element; the source indices lying over the result index (B, i, o)
  are exactly (B, n, i, o) for the 512 nodes n, so the reduction at (B, i, o) is the fold of max from bottom over the
  nodes of the gated product: the pooled value. The sum over the input-feature axis starts from the zero word,
  which is 0 and is absorbed, and the last stage divides by the splat of the pattern of 64.0, which the
  specification spells the same way and which is left unevaluated. Hence the reference at (B, o) is the row entry
  of the specification for the slab of batch row B.
-/
import proofs.«416149_j40097814676120_3_alg».proof.Proof.Spec
import proofs.«416149_j40097814676120_3_alg».proof.Proof.Gen.ReferenceIdeal.Read
import Idealize.ShloMosaic.Lib.ValueIdx
import Idealize.ShloMosaic.Lib.IdealHost
import Idealize.ShloMosaic.Lib.Pipeline.Value
import Idealize.ShloMosaic.PureOps.Ideal.Laws
import Idealize.ShloMosaic.PureOps.Reduce
import Mathlib.Data.Finset.Fold

set_option maxRecDepth 16384

noncomputable section

namespace Cert.Pool

open Cert.ReferenceIdeal Cert.ReferenceIdeal.Gen Cert.ReferenceIdeal.Read Idealize.ShloMosaic Idealize.ShloMosaic.ValueIdx

/-- The gate stage at (B, n, o): one over one plus the exponential of the negated affine map is the logistic function
    of that map, the affine map being the node's features against row o of the weight plus the bias at o. -/
theorem reference_gate_apply
    (x : (⟨S32x512x64, .f32⟩ : BufTy).Contents (Elt Ideal))
    (W : (⟨S64x64, .f32⟩ : BufTy).Contents (Elt Ideal))
    (b : (⟨S64, .f32⟩ : BufTy).Contents (Elt Ideal)) (B : Fin 32) (n : Fin 512) (o : Fin 64) :
    val_main_v9 (F := Ideal) x W b (ix3 B n o)
      = gate (fun n k => x (ix3 B n k)) (fun o' k => W (ix2 o' k)) (fun o' => b (ix1 o')) n o := by
  rw [val_main_v9_apply, val_main_v8_apply, val_main_cst_0_apply, val_main_v7_apply, val_main_v6_apply,
    val_main_cst_apply, val_main_v5_apply, val_main_v4_apply, val_main_v3_apply, val_main_v0_apply,
    val_main_v2_apply, val_main_v1_apply]
  have el : ∀ k : Fin 64, lidx_main_v0 (ix3 B n o) k = ix3 B n k := fun k =>
    funext fun a => by match a with | ⟨0, _⟩ => rfl | ⟨1, _⟩ => rfl | ⟨2, _⟩ => rfl
  have er : ∀ k : Fin 64, ridx_main_v0 (ix3 B n o) k = ix2 o k := fun k =>
    funext fun a => by match a with | ⟨0, _⟩ => rfl | ⟨1, _⟩ => rfl
  have eb : idx_main_v1 (idx_main_v2 (ix3 B n o)) = ix1 o :=
    funext fun a => by match a with | ⟨0, _⟩ => rfl
  simp only [el, er, eb]
  show Ideal.div (Ideal.ofBits .f32 0x3F800000#32)
      (Ideal.ofBits .f32 0x3F800000#32 + Ideal.exp (-((∑ k : Fin 64, x (ix3 B n k) * W (ix2 o k)) + b (ix1 o)))) = _
  rw [Ideal.ofBits_one_f32]
  rfl

/-- The product stage at (B, n, i, o): feature i of node n times the node's gate at o. -/
theorem reference_product_apply
    (x : (⟨S32x512x64, .f32⟩ : BufTy).Contents (Elt Ideal))
    (W : (⟨S64x64, .f32⟩ : BufTy).Contents (Elt Ideal))
    (b : (⟨S64, .f32⟩ : BufTy).Contents (Elt Ideal)) (B : Fin 32) (n : Fin 512) (i o : Fin 64) :
    val_main_v14 (F := Ideal) x W b (ix4 B n i o)
      = gated (fun n k => x (ix3 B n k)) (fun o' k => W (ix2 o' k)) (fun o' => b (ix1 o')) i o n := by
  rw [val_main_v14_apply, val_main_v12_apply, val_main_v10_apply, val_main_v13_apply, val_main_v11_apply]
  have e1 : idx_main_v10 (idx_main_v12 (ix4 B n i o)) = ix3 B n i :=
    funext fun a => by match a with | ⟨0, _⟩ => rfl | ⟨1, _⟩ => rfl | ⟨2, _⟩ => rfl
  have e2 : idx_main_v11 (idx_main_v13 (ix4 B n i o)) = ix3 B n o :=
    funext fun a => by match a with | ⟨0, _⟩ => rfl | ⟨1, _⟩ => rfl | ⟨2, _⟩ => rfl
  rw [e1, e2, reference_gate_apply]
  rfl

/-- The reduced index (B, i, o) with node n put back on the dropped axis is (B, n, i, o). -/
private theorem lift_node (h : S32x512x64x64.Reduces [1] S32x64x64) (B : Fin 32) (i o : Fin 64)
    (n : Fin (S32x512x64x64.size 1)) :
    h.lift (ix3 B i o) n = ix4 B (⟨n.val, n.isLt⟩ : Fin 512) i o := by
  funext c
  apply Fin.ext
  match c with
  | ⟨0, _⟩ => rfl
  | ⟨1, _⟩ => rfl
  | ⟨2, _⟩ => rfl
  | ⟨3, _⟩ => rfl

/-- The max stage at (B, i, o): the fold of max from the bottom element over the nodes of the gated product. -/
theorem reference_pooled_apply
    (x : (⟨S32x512x64, .f32⟩ : BufTy).Contents (Elt Ideal))
    (W : (⟨S64x64, .f32⟩ : BufTy).Contents (Elt Ideal))
    (b : (⟨S64, .f32⟩ : BufTy).Contents (Elt Ideal)) (B : Fin 32) (i o : Fin 64) :
    val_main_v15 (F := Ideal) x W b (ix3 B i o)
      = pooled (fun n k => x (ix3 B n k)) (fun o' k => W (ix2 o' k)) (fun o' => b (ix1 o')) i o := by
  have h : S32x512x64x64.Reduces [1] S32x64x64 := by decide
  unfold val_main_v15
  refine (Host.reduce_eq_fold_single (FloatOps.maximumf (F := Ideal) (φ := .f32)) (val_main_v14 (F := Ideal) x W b)
    (val_main_cst_1 (F := Ideal)) reducesTo_S32x512x64x64_S32x64x64_d1 h h_S_ (ix3 B i o)).trans ?_
  have hinit : val_main_cst_1 (F := Ideal) (Shape.Idx.first h_S_) = (⊥ : EReal) := by
    show Ideal.ofBits .f32 0xFF800000#32 = ⊥
    simp [Ideal.ofBits, Ideal.ieee]
  have hf : (val_main_v14 (F := Ideal) x W b ∘ h.lift (ix3 B i o))
      = fun n : Fin 512 => gated (fun n k => x (ix3 B n k)) (fun o' k => W (ix2 o' k)) (fun o' => b (ix1 o')) i o n :=
    funext fun n => (congrArg (val_main_v14 (F := Ideal) x W b) (lift_node h B i o n)).trans
      (reference_product_apply x W b B ⟨n.val, n.isLt⟩ i o)
  rw [hinit, hf]
  rfl

/-- The reference at (B, o) is the specification's row of batch B at output feature o. -/
theorem reference_eq_outRow
    (x : (⟨S32x512x64, .f32⟩ : BufTy).Contents (Elt Ideal))
    (W : (⟨S64x64, .f32⟩ : BufTy).Contents (Elt Ideal))
    (b : (⟨S64, .f32⟩ : BufTy).Contents (Elt Ideal)) (B : Fin 32) (o : Fin 64) :
    val_main_v18 (F := Ideal) x W b (ix2 B o)
      = outRow (fun n k => x (ix3 B n k)) (fun o' k => W (ix2 o' k)) (fun o' => b (ix1 o')) o := by
  rw [val_main_v18_apply, val_main_v17_apply, val_main_cst_3_apply, val_main_v16_apply, val_main_cst_2_apply]
  have e : ∀ k : Fin 64, idx_main_v16 (ix2 B o) k = ix3 B k o := fun k =>
    funext fun a => by match a with | ⟨0, _⟩ => rfl | ⟨1, _⟩ => rfl | ⟨2, _⟩ => rfl
  simp only [e, reference_pooled_apply]
  show Ideal.div (Ideal.ofBits .f32 0x00000000#32
      + ∑ k : Fin 64, pooled (fun n k => x (ix3 B n k)) (fun o' k => W (ix2 o' k)) (fun o' => b (ix1 o')) k o)
      (Ideal.ofBits .f32 0x42800000#32) = _
  rw [Ideal.ofBits_zero_f32, zero_add]
  rfl

end Cert.Pool
end
-- ==== Proof.RefArray.lean ====
/-
  The reference's result array is the specification's: the reference's last stage, entry by entry, is the row entry
  of the specification for that batch row.
-/
import proofs.«416149_j40097814676120_3_alg».proof.Proof.RefRow
import proofs.«416149_j40097814676120_3_alg».proof.Proof.Result

noncomputable section

namespace Cert.Pool

open Idealize.ShloMosaic Idealize.ShloMosaic.ValueIdx

theorem reference_eq_resultOf
    (x : (⟨Cert.ReferenceIdeal.S32x512x64, .f32⟩ : BufTy).Contents (Elt Ideal))
    (W : (⟨Cert.ReferenceIdeal.S64x64, .f32⟩ : BufTy).Contents (Elt Ideal))
    (b : (⟨Cert.ReferenceIdeal.S64, .f32⟩ : BufTy).Contents (Elt Ideal)) :
    Cert.ReferenceIdeal.Read.val_main_v18 (F := Ideal) x W b = resultOf x W b := by
  funext j
  obtain ⟨B, o, rfl⟩ : ∃ (B : Fin 32) (o : Fin 64), j = ix2 B o := ⟨j 0, j 1, eq_ix2 j⟩
  exact reference_eq_outRow x W b B o

end Cert.Pool

end
-- ==== Proof.lean ====
/-
  The certificate of the pooled, gated outer product (a max over nodes of x times a logistic gate, then a mean over
  the input features), kernel against reference, over the extended reals.

  Both programs compute, for batch row B and output feature o,
      ( sum over input features i of  max over nodes n of  x[B,n,i] * gate[B,n,o] ) / 64,
      gate[B,n,o] = logistic( sum over k of x[B,n,k] * W[o,k] + b[o] ).
  The reference does so in whole-array operations. The kernel works on blocks of 8 batch rows: it forms the gate of
  the block by one matrix product, then streams the 512 nodes in 16 rounds of 32, keeping two running maxima side by
  side in the lanes (the first and the last 16 nodes of every round), merges the two at the end, sums over the input
  features and divides by 64. A maximum does not depend on how the nodes are grouped, so the two agree; no
  finiteness of the inputs is needed for that, and the precondition is never opened.

  The modules: Spec (one batch row of the result as a function of the row's slab, the weight and the bias), Result
  (the whole result array), RefRow and RefArray (the reference is that array), GateBlock, TripMax and Finish (the
  kernel's payloads read at an index), RunningMax (the two interleaved running maxima are the maximum over all
  nodes), BlockTerm and BlockValue (one grid point's output block), Final (the four blocks tile the result array).
  The frames are the generated ones; the kernel's idealization rewrote nothing, so the preservation claim is trivial.
-/
import proofs.«416149_j40097814676120_3_alg».proof.Defs
import proofs.«416149_j40097814676120_3_alg».proof.Proof.Gen.Kernel
import proofs.«416149_j40097814676120_3_alg».proof.Proof.Gen.Kernel.Skeleton
import proofs.«416149_j40097814676120_3_alg».proof.Proof.Gen.Kernel.Loops
import proofs.«416149_j40097814676120_3_alg».proof.Proof.Gen.Kernel.Launch
import proofs.«416149_j40097814676120_3_alg».proof.Proof.Gen.Kernel.Points
import proofs.«416149_j40097814676120_3_alg».proof.Proof.Gen.Kernel.Frame
import proofs.«416149_j40097814676120_3_alg».proof.Proof.Gen.KernelIdeal
import proofs.«416149_j40097814676120_3_alg».proof.Proof.Gen.KernelIdeal.Skeleton
import proofs.«416149_j40097814676120_3_alg».proof.Proof.Gen.KernelIdeal.Loops
import proofs.«416149_j40097814676120_3_alg».proof.Proof.Gen.KernelIdeal.Launch
import proofs.«416149_j40097814676120_3_alg».proof.Proof.Gen.KernelIdeal.Points
import proofs.«416149_j40097814676120_3_alg».proof.Proof.Gen.KernelIdeal.Frame
import proofs.«416149_j40097814676120_3_alg».proof.Proof.Gen.ReferenceIdeal
import proofs.«416149_j40097814676120_3_alg».proof.Proof.Gen.Pre_finite_inputs
import proofs.«416149_j40097814676120_3_alg».proof.Proof.Gen.KernelIdeal.Value
import proofs.«416149_j40097814676120_3_alg».proof.Proof.Gen.ReferenceIdeal.Run
import proofs.«416149_j40097814676120_3_alg».proof.Proof.Gen.ReferenceIdeal.Read
import proofs.«416149_j40097814676120_3_alg».proof.Proof.Final
import proofs.«416149_j40097814676120_3_alg».proof.Proof.RefArray
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the specification's result array of the (agreeing) argument arrays. -/
theorem algebraic : Cert.algebraic_KernelIdeal_ReferenceIdeal := by
  intro m ρ m' ρ' _ hagree
  refine ⟨fun c => Cert.Pool.result m c, Cert.Pool.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.Pool.reference_eq_resultOf, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
